-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S8x256x1024 : Shape := ⟨3, ![8, 256, 1024]⟩
abbrev S8x1024x256 : Shape := ⟨3, ![8, 1024, 256]⟩
abbrev S8 : Shape := ⟨1, ![8]⟩
abbrev S_ : Shape := ⟨0, ![]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  bcast_S_S8x256x1024 : S_.BroadcastsInDim S8x256x1024 (![] : Fin 0 → Fin S8x256x1024.rank)
  reducesTo_S8x256x1024_S_d0_1_2 : S8x256x1024.ReducesTo [0, 1, 2] S_
  bcast_S_S8x1024x256 : S_.BroadcastsInDim S8x1024x256 (![] : Fin 0 → Fin S8x1024x256.rank)
  reducesTo_S8x1024x256_S_d0_1_2 : S8x1024x256.ReducesTo [0, 1, 2] S_

variable [Facts]

def fn_part1 {F : FTy → Type} [FloatOps F] (main_v13 : IVec S_ 1) (main_v16 : IVec S8x1024x256 1) : IVec S_ 1 :=
  let main_c_5 : IVec S_ 1 := constantI S_ 1 1#1
  let main_v17 : IVec S_ 1 := (fun x v => Host.reduce IntOp.andi x v reducesTo_S8x1024x256_S_d0_1_2 h_S_) main_v16 main_c_5
  let main_v18 : IVec S_ 1 := andi main_v13 main_v17
  main_v18

def fn {F : FTy → Type} [FloatOps F] (main_arg0 : FVec F S131072x256 .f32) (main_arg1 : FVec F S8x256x1024 .f32) (main_arg2 : FVec F S8x256x1024 .f32) (main_arg3 : FVec F S8x1024x256 .f32) (main_arg4 : IVec S8 32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S8x256x1024 .f32 := Host.absf main_arg1
  let main_cst_0 : FVec F S_ .f32 := constant S_ .f32 0x7F800000#32
  let main_v5 : FVec F S8x256x1024 .f32 := broadcastInDim S8x256x1024 ![] bcast_S_S8x256x1024 main_cst_0
  let main_v6 : IVec S8x256x1024 1 := cmpf .olt main_v4 main_v5
  let main_c_1 : IVec S_ 1 := constantI S_ 1 1#1
  let main_v7 : IVec S_ 1 := (fun x v => Host.reduce IntOp.andi x v reducesTo_S8x256x1024_S_d0_1_2 h_S_) main_v6 main_c_1
  let main_v8 : IVec S_ 1 := andi main_v3 main_v7
  let main_v9 : FVec F S8x256x1024 .f32 := Host.absf main_arg2
  let main_cst_2 : FVec F S_ .f32 := constant S_ .f32 0x7F800000#32
  let main_v10 : FVec F S8x256x1024 .f32 := broadcastInDim S8x256x1024 ![] bcast_S_S8x256x1024 main_cst_2
  let main_v11 : IVec S8x256x1024 1 := cmpf .olt main_v9 main_v10
  let main_c_3 : IVec S_ 1 := constantI S_ 1 1#1
  let main_v12 : IVec S_ 1 := (fun x v => Host.reduce IntOp.andi x v reducesTo_S8x256x1024_S_d0_1_2 h_S_) main_v11 main_c_3
  let main_v13 : IVec S_ 1 := andi main_v8 main_v12
  let main_v14 : FVec F S8x1024x256 .f32 := Host.absf main_arg3
  let main_cst_4 : FVec F S_ .f32 := constant S_ .f32 0x7F800000#32
  let main_v15 : FVec F S8x1024x256 .f32 := broadcastInDim S8x1024x256 ![] bcast_S_S8x1024x256 main_cst_4
  let main_v16 : IVec S8x1024x256 1 := cmpf .olt main_v14 main_v15
  fn_part1 (F := F) main_v13 main_v16
-- ==== Kernel.lean ====
abbrev S131072x256 : Shape := ⟨2, ![131072, 256]⟩
abbrev S8x256x1024 : Shape := ⟨3, ![8, 256, 1024]⟩
abbrev S8x1024x256 : Shape := ⟨3, ![8, 1024, 256]⟩
abbrev S8 : Shape := ⟨1, ![8]⟩
abbrev S8x16384x256 : Shape := ⟨3, ![8, 16384, 256]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S131072x256, .f32⟩
  | .hbm, ⟨1, _⟩ => ⟨S8x256x1024, .f32⟩
  | .hbm, ⟨2, _⟩ => ⟨S8x256x1024, .f32⟩
  | .hbm, ⟨3, _⟩ => ⟨S8x1024x256, .f32⟩
  | .hbm, ⟨4, _⟩ => ⟨S8, .i32⟩
  | .hbm, ⟨5, _⟩ => ⟨S8x16384x256, .f32⟩
  | .hbm, ⟨6, _⟩ => ⟨S8x16384x256, .f32⟩
  | .hbm, ⟨7, _⟩ => ⟨S131072x256, .f32⟩
  | .local _ .vmem, ⟨0, _⟩ => ⟨S1x1024x256, .f32⟩
  | .local _ .vmem, ⟨1, _⟩ => ⟨S1x1024x256, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S131072x256_S8x16384x256 : S131072x256.ShapeCasts S8x16384x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S1024x256_S1x1024x256 : S1024x256.ShapeCasts S1x1024x256
  shapeCasts_S8x16384x256_S131072x256 : S8x16384x256.ShapeCasts S131072x256
  dot_S1024x256_S256x1024_S1024x1024_1_0_0_1_n_n_wf : DotDims.WF S1024x256 S256x1024 S1024x1024 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x16384x256.size a
  hwx0_0 : ∀ i : grid0.Coords, EltTy.bits .f32 = 32 ∨ (Rect.block (s := S8x16384x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1024.size a ≤ S8x256x1024.size a
  hwx0_1 : ∀ i : grid0.Coords, EltTy.bits .f32 = 32 ∨ (Rect.block (s := S8x256x1024) S1x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x256x1024.size a
  hwx0_2 : ∀ i : grid0.Coords, EltTy.bits .f32 = 32 ∨ (Rect.block (s := S8x256x1024) S1x256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S8x1024x256.size a
  hwx0_3 : ∀ i : grid0.Coords, EltTy.bits .f32 = 32 ∨ (Rect.block (s := S8x1024x256) S1x1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x256.size a ≤ S8x16384x256.size a
  hwx0_4 : ∀ i : grid0.Coords, EltTy.bits .f32 = 32 ∨ (Rect.block (s := S8x16384x256) S1x1024x256.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x256 : Shape := ⟨2, ![131072, 256]⟩
abbrev S8x256x1024 : Shape := ⟨3, ![8, 256, 1024]⟩
abbrev S8x1024x256 : Shape := ⟨3, ![8, 1024, 256]⟩
abbrev S8 : Shape := ⟨1, ![8]⟩
abbrev S8x16384x256 : Shape := ⟨3, ![8, 16384, 256]⟩
abbrev S8x16384x1024 : Shape := ⟨3, ![8, 16384, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S8x256x1024, .f32⟩
  | .hbm, ⟨2, _⟩ => ⟨S8x256x1024, .f32⟩
  | .hbm, ⟨3, _⟩ => ⟨S8x1024x256, .f32⟩
  | .hbm, ⟨4, _⟩ => ⟨S8, .i32⟩
  | .hbm, ⟨5, _⟩ => ⟨S8x16384x256, .f32⟩
  | .hbm, ⟨6, _⟩ => ⟨S8x16384x1024, .f32⟩
  | .hbm, ⟨7, _⟩ => ⟨S8x16384x1024, .f32⟩
  | .hbm, ⟨8, _⟩ => ⟨S8x16384x1024, .f32⟩
  | .hbm, ⟨9, _⟩ => ⟨S8x16384x1024, .f32⟩
  | .hbm, ⟨10, _⟩ => ⟨S_, .f32⟩
  | .hbm, ⟨11, _⟩ => ⟨S8x16384x1024, .f32⟩
  | .hbm, ⟨12, _⟩ => ⟨S8x16384x1024, .f32⟩
  | .hbm, ⟨13, _⟩ => ⟨S_, .f32⟩
  | .hbm, ⟨14, _⟩ => ⟨S8x16384x1024, .f32⟩
  | .hbm, ⟨15, _⟩ => ⟨S8x16384x1024, .f32⟩
  | .hbm, ⟨16, _⟩ => ⟨S8x16384x1024, .f32⟩
  | .hbm, ⟨17, _⟩ => ⟨S8x16384x1024, .f32⟩
  | .hbm, ⟨18, _⟩ => ⟨S8x16384x256, .f32⟩
  | .hbm, ⟨19, _⟩ => ⟨S131072x256, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]

class Facts₀ : Prop where
  shapeCasts_S131072x256_S8x16384x256 : S131072x256.ShapeCasts S8x16384x256
  bcast_S_S8x16384x1024 : S_.BroadcastsInDim S8x16384x1024 (![] : Fin 0 → Fin S8x16384x1024.rank)
  shapeCasts_S8x16384x256_S131072x256 : S8x16384x256.ShapeCasts S131072x256
  dot_S8x16384x256_S8x256x1024_S8x16384x1024_2_1_1_2_0_0_wf : DotDims.WF S8x16384x256 S8x256x1024 S8x16384x1024 [2] [1] [1] [2] [0] [0]
  dot_S8x16384x1024_S8x1024x256_S8x16384x256_2_1_1_2_0_0_wf : DotDims.WF S8x16384x1024 S8x1024x256 S8x16384x256 [2] [1] [1] [2] [0] [0]

variable [Facts₀]

def dot_S8x16384x256_S8x256x1024_S8x16384x1024_2_1_1_2_0_0 : DotDims S8x16384x256 S8x256x1024 S8x16384x1024 where
  lhsContracting := [2]
  rhsContracting := [1]
  lhsNonContracting := [1]
  rhsNonContracting := [2]
  lhsBatch := [0]
  rhsBatch := [0]
  wf := dot_S8x16384x256_S8x256x1024_S8x16384x1024_2_1_1_2_0_0_wf
def dot_S8x16384x1024_S8x1024x256_S8x16384x256_2_1_1_2_0_0 : DotDims S8x16384x1024 S8x1024x256 S8x16384x256 where
  lhsContracting := [2]
  rhsContracting := [1]
  lhsNonContracting := [1]
  rhsNonContracting := [2]
  lhsBatch := [0]
  rhsBatch := [0]
  wf := dot_S8x16384x1024_S8x1024x256_S8x16384x256_2_1_1_2_0_0_wf

class Facts : Prop extends Facts₀ where

variable [Facts]
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.Spec.lean ====
/-
  The grouped gated linear unit as one function of its four arrays, index by index, over the extended reals.

  Tokens come in 8 groups of 16384 rows of 256 features. Group g owns two 256 x 1024 projections (gate and up)
  and one 1024 x 256 projection (down). For the token (g, t):
    z_gate(f) = sum over k of x(g, t, k) * w_gate(g, k, f),   z_up(f) likewise with w_up,
    h(f)      = (z_gate(f) * logistic(z_gate(f))) * z_up(f),
    y(d)      = sum over f of h(f) * w_down(g, f, d).
  Nothing here mentions a program: both programs are later shown to compute this function.
-/
import Idealize.ShloMosaic.PureOps.Ideal
import Idealize.ShloMosaic.Lib.ValueIdx

noncomputable section

open scoped BigOperators

namespace Cert.GluSpec

open Idealize.ShloMosaic Idealize.ShloMosaic.ValueIdx

/-- The tokens, grouped: 8 groups of 16384 rows of 256 features (also the result's shape). -/
abbrev Tok : Shape := ⟨3, ![8, 16384, 256]⟩
/-- A group's projection into the 1024 hidden features. -/
abbrev Up : Shape := ⟨3, ![8, 256, 1024]⟩
/-- A group's projection back to the 256 features. -/
abbrev Down : Shape := ⟨3, ![8, 1024, 256]⟩

/-- Row (g, t) of the tokens against column f of group g's projection w. -/
def proj (xs : FVec Ideal Tok .f32) (w : FVec Ideal Up .f32) (g : Fin 8) (t : Fin 16384) (f : Fin 1024) : EReal :=
  ∑ k : Fin 256, xs (ix3 g t k) * w (ix3 g k f)

/-- The hidden feature f of token (g, t): the gate's pre-activation times its logistic, times the up projection. -/
def hidden (xs : FVec Ideal Tok .f32) (wg wu : FVec Ideal Up .f32) (g : Fin 8) (t : Fin 16384) (f : Fin 1024) : EReal :=
  proj xs wg g t f * Ideal.logistic (proj xs wg g t f) * proj xs wu g t f

/-- Output feature d of token (g, t): the hidden features against column d of group g's down projection. -/
def gluAt (xs : FVec Ideal Tok .f32) (wg wu : FVec Ideal Up .f32) (wd : FVec Ideal Down .f32)
    (g : Fin 8) (t : Fin 16384) (d : Fin 256) : EReal :=
  ∑ f : Fin 1024, hidden xs wg wu g t f * wd (ix3 g f d)

/-- The whole result array. -/
def glu (xs : FVec Ideal Tok .f32) (wg wu : FVec Ideal Up .f32) (wd : FVec Ideal Down .f32) : FVec Ideal Tok .f32 :=
  fun j => gluAt xs wg wu wd (j 0) (j 1) (j 2)

/-- Row r of tile i of a group: tiles are 1024 consecutive rows, 16 to a group. -/
def tileRow (i : Fin 16) (r : Fin 1024) : Fin 16384 := ⟨i.val * 1024 + r.val, by have := i.isLt; have := r.isLt; omega⟩

end Cert.GluSpec

end
-- ==== Proof.Payload.lean ====
/-
  What one grid point computes, read at an entry.

  At a point the body sees a tile of 1024 token rows (as a [1, 1024, 256] block) and its group's three projections
  (as [1, 256, 1024], [1, 256, 1024] and [1, 1024, 256] blocks). Dropping the unit axis, it forms the two products
  tile * gate and tile * up into zero accumulators, the hidden tile (zg * logistic zg) * zu, and the product of the
  hidden tile with the down projection; the narrowing of operands to a shorter float format is the identity over the
  extended reals. So entry (r, d) of the stored tile is the specification's value for that row, with the blocks in
  place of the arrays.
-/
import proofs.«120272_j35373350650171_1_alg».proof.Proof.Gen.KernelIdeal.Skeleton
import proofs.«120272_j35373350650171_1_alg».proof.Proof.LibDot
import proofs.«120272_j35373350650171_1_alg».proof.Proof.Spec
import Idealize.ShloMosaic.Lib.Pipeline.Value

noncomputable section

open scoped BigOperators

namespace Cert.KernelIdeal.GluBody

open Cert.KernelIdeal Cert.KernelIdeal.Gen Idealize.ShloMosaic Idealize.ShloMosaic.ValueIdx Cert.GluSpec

/-- A [1, A, B] array with its unit axis dropped, at (r, k), is the array at (0, r, k). -/
theorem drop_unit {α : Type} {A B : Nat} (v : (⟨3, ![1, A, B]⟩ : Shape).Idx → α)
    (h : (⟨3, ![1, A, B]⟩ : Shape).ShapeCasts ⟨2, ![A, B]⟩) (r : Fin A) (k : Fin B) :
    shapeCast ⟨2, ![A, B]⟩ v h (ix2 r k) = v (ix3 0 r k) := by
  rw [shapeCast_dropUnit_apply ![A, B] v h]
  congr 1
  funext a
  match a with
  | ⟨0, _⟩ => rfl
  | ⟨1, _⟩ => rfl
  | ⟨2, _⟩ => rfl

/-- An [A, B] array given a leading unit axis, at (z, r, k), is the array at (r, k). -/
theorem add_unit {α : Type} {A B : Nat} (v : (⟨2, ![A, B]⟩ : Shape).Idx → α)
    (h : (⟨2, ![A, B]⟩ : Shape).ShapeCasts ⟨3, ![1, A, B]⟩) (z : Fin 1) (r : Fin A) (k : Fin B) :
    shapeCast ⟨3, ![1, A, B]⟩ v h (ix3 z r k) = v (ix2 r k) := by
  rw [shapeCast_addUnit_apply ![A, B] v h]
  congr 1
  funext a
  match a with
  | ⟨0, _⟩ => rfl
  | ⟨1, _⟩ => rfl

/-- Row r of the tile against column f of a projection block. -/
def bproj (x0 : Vec Ideal S1x1024x256 .f32) (w : Vec Ideal S1x256x1024 .f32) (r : Fin 1024) (f : Fin 1024) : EReal :=
  ∑ k : Fin 256, x0 (ix3 0 r k) * w (ix3 0 k f)

/-- The product of the tile with a projection block, both narrowed and with the unit axis dropped, into a zero
    accumulator: at (r, f) it is the row-by-column sum. -/
theorem first_product (x0 : Vec Ideal S1x1024x256 .f32) (w : Vec Ideal S1x256x1024 .f32) (r : Fin 1024) (f : Fin 1024) :
    matmul (F := Ideal) dot_S1024x256_S256x1024_S1024x1024_1_0_0_1_n_n none
        (truncf .bf16 (shapeCast S1024x256 x0 shapeCasts_S1x1024x256_S1024x256) bitsLt_bf16_f32)
        (truncf .bf16 (shapeCast S256x1024 w shapeCasts_S1x256x1024_S256x1024) bitsLt_bf16_f32)
        (constant S1024x1024 .f32 0x00000000#32) (ix2 r f)
      = bproj x0 w r f :=
  (Cert.LibDot.matmul_zero_at dot_S1024x256_S256x1024_S1024x1024_1_0_0_1_n_n rfl rfl rfl rfl rfl rfl none _ _ r f).trans
    (Finset.sum_congr rfl fun k _ => congrArg₂ (· * ·)
      (drop_unit x0 shapeCasts_S1x1024x256_S1024x256 r k) (drop_unit w shapeCasts_S1x256x1024_S256x1024 k f))

/-- Entry (r, d) of the tile the body stores: the hidden row r against column d of the down block. -/
theorem pay_at (x0 : Vec Ideal S1x1024x256 .f32) (x1 x2 : Vec Ideal S1x256x1024 .f32) (x3 : Vec Ideal S1x1024x256 .f32)
    (r : Fin 1024) (d : Fin 256) :
    k0_pay1 (F := Ideal) x0 x1 x2 x3 (ix3 0 r d)
      = ∑ f : Fin 1024, (bproj x0 x1 r f * Ideal.logistic (bproj x0 x1 r f) * bproj x0 x2 r f) * x3 (ix3 0 f d) := by
  unfold k0_pay1
  refine (add_unit _ shapeCasts_S1024x256_S1x1024x256 0 r d).trans ?_
  refine (Cert.LibDot.matmul_zero_at dot_S1024x1024_S1024x256_S1024x256_1_0_0_1_n_n rfl rfl rfl rfl rfl rfl none _ _ r d).trans ?_
  refine Finset.sum_congr rfl fun f _ => ?_
  refine congrArg₂ (· * ·) ?_ (drop_unit x3 shapeCasts_S1x1024x256_S1024x256 f d)
  refine congrArg₂ (· * ·) (congrArg₂ (· * ·) (first_product x0 x1 r f) ?_) (first_product x0 x2 r f)
  exact congrArg Ideal.logistic (first_product x0 x1 r f)

/-- The same entry when the blocks are the tile i of group g of the token array and group g of the three
    projections: the specification's value at row i * 1024 + r of group g. -/
theorem point_eq (x0 : Vec Ideal S1x1024x256 .f32) (x1 x2 : Vec Ideal S1x256x1024 .f32) (x3 : Vec Ideal S1x1024x256 .f32)
    (xs : FVec Ideal Tok .f32) (wg wu : FVec Ideal Up .f32) (wd : FVec Ideal Down .f32) (g : Fin 8) (i : Fin 16)
    (h0 : ∀ (r : Fin 1024) (k : Fin 256), x0 (ix3 0 r k) = xs (ix3 g (tileRow i r) k))
    (h1 : ∀ (k : Fin 256) (f : Fin 1024), x1 (ix3 0 k f) = wg (ix3 g k f))
    (h2 : ∀ (k : Fin 256) (f : Fin 1024), x2 (ix3 0 k f) = wu (ix3 g k f))
    (h3 : ∀ (f : Fin 1024) (d : Fin 256), x3 (ix3 0 f d) = wd (ix3 g f d))
    (r : Fin 1024) (d : Fin 256) :
    k0_pay1 (F := Ideal) x0 x1 x2 x3 (ix3 0 r d) = gluAt xs wg wu wd g (tileRow i r) d := by
  have eg : ∀ f, bproj x0 x1 r f = proj xs wg g (tileRow i r) f := fun f =>
    Finset.sum_congr rfl fun k _ => by rw [h0, h1]
  have eu : ∀ f, bproj x0 x2 r f = proj xs wu g (tileRow i r) f := fun f =>
    Finset.sum_congr rfl fun k _ => by rw [h0, h2]
  rw [pay_at]
  unfold gluAt Cert.GluSpec.hidden
  refine Finset.sum_congr rfl fun f _ => ?_
  rw [eg, eu, h3]

end Cert.KernelIdeal.GluBody

end
-- ==== Proof.Blocks.lean ====
/-
  From the grid's tiles to the kernel's result.

  The grid has 8 x 16 points; point (g, i) reads tile i of group g of the grouped tokens (rows i * 1024 .. i * 1024 + 1023)
  and group g of each projection, and writes tile i of group g of the result. A block's coordinate on an axis is
  (block index) * (block extent) + (coordinate inside the block); the block indices of the five windows are compared
  once over the grid. Every index (g, t, d) of the result lies in the tile t / 1024 of group g, so the tiles cover the
  array and it ends holding the specification of the arrays the region found. The tokens reach the region grouped
  by a reshape, and the result leaves it through the inverse reshape.
-/
import proofs.«120272_j35373350650171_1_alg».proof.Proof.Gen.KernelIdeal.Frame
import proofs.«120272_j35373350650171_1_alg».proof.Proof.Payload
import Idealize.ShloMosaic.Lib.Pipeline.Value
import Idealize.ShloMosaic.Lib.StableHlo.Run

set_option maxRecDepth 16384

noncomputable section

open scoped BigOperators

namespace Cert.KernelIdeal.GluValue

open Cert.KernelIdeal Cert.KernelIdeal.Gen Idealize.ShloMosaic Idealize.ShloMosaic.TcCoe Idealize.ShloMosaic.ValueIdx
open Idealize.SL.Sem Cert.GluSpec
open Idealize.ShloMosaic.Pipeline (Dat)

variable (m : (ℓ : Loc nD τ sig) → Buf (Elt Ideal) ℓ) (ρ : Dev nD → PrngReg)

/-! ## The arrays the region finds, and a point's blocks, at their literal types -/

/-- The grouped tokens as the region finds them. -/
abbrev xs (c : Dev nD) : FVec Ideal Tok .f32 := V m c main_v0
/-- The gate, up and down projections as the region finds them. -/
abbrev wg (c : Dev nD) : FVec Ideal Up .f32 := V m c main_arg1
abbrev wu (c : Dev nD) : FVec Ideal Up .f32 := V m c main_arg2
abbrev wd (c : Dev nD) : FVec Ideal Down .f32 := V m c main_arg3

/-- The token tile and the three projection blocks at point t. -/
abbrev xblk (c : Dev nD) (t : Fin cfg0.N) : Vec Ideal S1x1024x256 .f32 := iblk m c 0 t
abbrev gblk (c : Dev nD) (t : Fin cfg0.N) : Vec Ideal S1x256x1024 .f32 := iblk m c 1 t
abbrev ublk (c : Dev nD) (t : Fin cfg0.N) : Vec Ideal S1x256x1024 .f32 := iblk m c 2 t
abbrev dblk (c : Dev nD) (t : Fin cfg0.N) : Vec Ideal S1x1024x256 .f32 := iblk m c 3 t

theorem zero_offsets : (![0, 0, 0] : Fin 3 → Nat) = fun _ => 0 := funext fun a => by fin_cases a <;> rfl

/-- The block indices over the grid: the token tile moves with the result's tile, every projection block sits at its
    group, and the result's group and tile indices stay in range. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) < 8 ∧ win0_4.index t (1 : Fin 3) < 16 ∧ win0_4.index t (2 : Fin 3) = 0 :=
  (by decide +kernel : ∀ t : Fin grid0.N, _)

/-- Every (group, tile) pair is some point's. -/
theorem idx_onto : ∀ (q0 : Fin 8) (q1 : Fin 16), ∃ t : Fin cfg0.N, win0_4.index t = ![q0.val, q1.val, 0] :=
  (by decide +kernel : ∀ (q0 : Fin 8) (q1 : Fin 16), ∃ t : Fin grid0.N, win0_4.index t = ![q0.val, q1.val, 0])

/-! ## What a point writes back -/

/-- What point t writes back is tile t of the specification of the arrays the region found. -/
theorem flushed_eq (c : Dev nD) (t : Fin cfg0.N) :
    (dats m 0 c).flushed 4 t
      = ((cfg0.win 4).blk t).view.read (Elt Ideal) (glu (xs m c) (wg m c) (wu m c) (wd m c)) := by
  show (cfg0.win 4).cut (grid0.coords t) ((dats m 0 c).after 4 t) = _
  rw [after0_4]
  unfold out0_4
  rw [View.canon_unit_zero zero_offsets]
  simp only [View.ld_unit_zero (S := S1x1024x256) zero_offsets, View.ld_unit_zero (S := S1x256x1024) zero_offsets]
  obtain ⟨a00, a01, a02, a10, a11, a12, a20, a21, a22, a30, a31, a32, b0, b1, b2⟩ := idx_facts t
  let g : Fin 8 := ⟨win0_4.index t (0 : Fin 3), b0⟩
  let i : Fin 16 := ⟨win0_4.index t (1 : Fin 3), b1⟩
  have h0 : ∀ (r : Fin 1024) (k : Fin 256), xblk m c t (ix3 0 r k) = xs m c (ix3 g (tileRow i r) k) := fun r k => by
    show V m c main_v0 (((cfg0.win 0).blk t).view.emb (ix3 (0 : Fin 1) r k)) = V m c main_v0 (ix3 g (tileRow i r) k)
    refine congrArg (V m c main_v0) ?_
    funext a; apply Fin.ext
    match a with
    | ⟨0, _⟩ => show win0_0.index t (0 : Fin 3) * 1 + 1 * 0 = win0_4.index t (0 : Fin 3); omega
    | ⟨1, _⟩ => show win0_0.index t (1 : Fin 3) * 1024 + 1 * r.val = win0_4.index t (1 : Fin 3) * 1024 + r.val; omega
    | ⟨2, _⟩ => show win0_0.index t (2 : Fin 3) * 256 + 1 * k.val = k.val; omega
  have h1 : ∀ (k : Fin 256) (f : Fin 1024), gblk m c t (ix3 0 k f) = wg m c (ix3 g k f) := fun k f => by
    show V m c main_arg1 (((cfg0.win 1).blk t).view.emb (ix3 (0 : Fin 1) k f)) = V m c main_arg1 (ix3 g k f)
    refine congrArg (V m c main_arg1) ?_
    funext a; apply Fin.ext
    match a with
    | ⟨0, _⟩ => show win0_1.index t (0 : Fin 3) * 1 + 1 * 0 = win0_4.index t (0 : Fin 3); omega
    | ⟨1, _⟩ => show win0_1.index t (1 : Fin 3) * 256 + 1 * k.val = k.val; omega
    | ⟨2, _⟩ => show win0_1.index t (2 : Fin 3) * 1024 + 1 * f.val = f.val; omega
  have h2 : ∀ (k : Fin 256) (f : Fin 1024), ublk m c t (ix3 0 k f) = wu m c (ix3 g k f) := fun k f => by
    show V m c main_arg2 (((cfg0.win 2).blk t).view.emb (ix3 (0 : Fin 1) k f)) = V m c main_arg2 (ix3 g k f)
    refine congrArg (V m c main_arg2) ?_
    funext a; apply Fin.ext
    match a with
    | ⟨0, _⟩ => show win0_2.index t (0 : Fin 3) * 1 + 1 * 0 = win0_4.index t (0 : Fin 3); omega
    | ⟨1, _⟩ => show win0_2.index t (1 : Fin 3) * 256 + 1 * k.val = k.val; omega
    | ⟨2, _⟩ => show win0_2.index t (2 : Fin 3) * 1024 + 1 * f.val = f.val; omega
  have h3 : ∀ (f : Fin 1024) (d : Fin 256), dblk m c t (ix3 0 f d) = wd m c (ix3 g f d) := fun f d => by
    show V m c main_arg3 (((cfg0.win 3).blk t).view.emb (ix3 (0 : Fin 1) f d)) = V m c main_arg3 (ix3 g f d)
    refine congrArg (V m c main_arg3) ?_
    funext a; apply Fin.ext
    match a with
    | ⟨0, _⟩ => show win0_3.index t (0 : Fin 3) * 1 + 1 * 0 = win0_4.index t (0 : Fin 3); omega
    | ⟨1, _⟩ => show win0_3.index t (1 : Fin 3) * 1024 + 1 * f.val = f.val; omega
    | ⟨2, _⟩ => show win0_3.index t (2 : Fin 3) * 256 + 1 * d.val = d.val; omega
  funext j
  show k0_pay1 (F := Ideal) (xblk m c t) (gblk m c t) (ublk m c t) (dblk m c t) j
    = glu (xs m c) (wg m c) (wu m c) (wd m c) (((cfg0.win 4).blk t).view.emb j)
  have hj0 : (j 0).val < 1 := (j 0).isLt
  have hj : (j : S1x1024x256.Idx) = ix3 (0 : Fin 1) (j 1) (j 2) := by
    funext a
    match a with
    | ⟨0, _⟩ => exact Fin.ext (by show (j 0).val = 0; omega)
    | ⟨1, _⟩ => rfl
    | ⟨2, _⟩ => rfl
  have he : ((cfg0.win 4).blk t).view.emb j = ix3 g (tileRow i (j 1)) (j 2) := by
    funext a; apply Fin.ext
    match a with
    | ⟨0, _⟩ => show win0_4.index t (0 : Fin 3) * 1 + 1 * (j 0).val = win0_4.index t (0 : Fin 3); omega
    | ⟨1, _⟩ => show win0_4.index t (1 : Fin 3) * 1024 + 1 * (j 1).val = win0_4.index t (1 : Fin 3) * 1024 + (j 1).val; omega
    | ⟨2, _⟩ => show win0_4.index t (2 : Fin 3) * 256 + 1 * (j 2).val = (j 2).val; omega
  refine (congrArg (k0_pay1 (F := Ideal) (xblk m c t) (gblk m c t) (ublk m c t) (dblk m c t)) hj).trans ?_
  refine (Cert.KernelIdeal.GluBody.point_eq (xblk m c t) (gblk m c t) (ublk m c t) (dblk m c t)
    (xs m c) (wg m c) (wu m c) (wd m c) g i h0 h1 h2 h3 (j 1) (j 2)).trans ?_
  exact (congrArg (glu (xs m c) (wg m c) (wu m c) (wd m c)) he).symm

/-! ## The tiles cover the result -/

/-- An index of the result is in point t's tile iff each coordinate is in the tile's range on its axis. -/
theorem mem_blk (t : Fin cfg0.N) (i : S8x16384x256.Idx) :
    i ∈ ((cfg0.win 4).blk t).view.set ↔ ∀ a : Fin 3, win0_4.index t a * S1x1024x256.size a ≤ (i a).val
      ∧ (i a).val < win0_4.index t a * S1x1024x256.size a + S1x1024x256.size a := by
  show i ∈ ((View.whole main_v1).slice (win0_4.rect t)).set ↔ _
  rw [View.set_slice_whole, Rect.mem_set_unit]
  exact Iff.rfl

/-- Index (g, t, d) lies in tile t / 1024 of group g. -/
theorem cover (i : S8x16384x256.Idx) :
    ∃ t : Fin cfg0.N, (cfg0.win 4).flush t = true ∧ i ∈ ((cfg0.win 4).blk t).view.set := by
  have hi0 : (i 0).val < 8 := (i 0).isLt
  have hi1 : (i 1).val < 16384 := (i 1).isLt
  have hi2 : (i 2).val < 256 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 256 ≤ (i 2).val ∧ (i 2).val < win0_4.index t (2 : Fin 3) * 256 + 256; omega

/-- The result array after the region: the specification of the arrays the region found. -/
theorem final (c : Dev nD) : (dats m 0 c).arrAt 4 cfg0.N = glu (xs m c) (wg m c) (wu m c) (wd m c) :=
  (dats m 0 c).arrAt_eq_of_cover 4 (glu (xs m c) (wg m c) (wu m c) (wd m c)) (fun t _ => flushed_eq m c t) cover

end Cert.KernelIdeal.GluValue

end
-- ==== Proof.KernelRun.lean ====
/-
  The kernel program's run, with its result named.

  The region finds the tokens grouped by a reshape of the first argument and the three projections as launched;
  after the region the result array is reshaped back. So the program's result is the reshape of the specification
  of (the reshaped tokens, the three projections), and no argument array changes.
-/
import proofs.«120272_j35373350650171_1_alg».proof.Proof.Blocks

set_option maxRecDepth 16384

noncomputable section

namespace Cert.KernelIdeal.GluValue

open Cert.KernelIdeal Cert.KernelIdeal.Gen Idealize.ShloMosaic Idealize.ShloMosaic.TcCoe Idealize.ShloMosaic.ValueIdx
open Idealize.SL.Sem Cert.GluSpec Idealize.ShloMosaic.StableHlo
open Idealize.ShloMosaic.Pipeline (Dat)

variable (m : (ℓ : Loc nD τ sig) → Buf (Elt Ideal) ℓ) (ρ : Dev nD → PrngReg)

/-- The region finds the tokens grouped: the first argument reshaped. -/
theorem xs_eq (c : Dev nD) :
    xs m c = shapeCast S8x16384x256 (m ((c : Thread nD τ).loc main_arg0)) shapeCasts_S131072x256_S8x16384x256 := by
  show StableHlo.after hostOps0 (fun b => m (c, b)) (Proc.devRef .tc main_v0) = _
  after_results
  rfl

/-- After the region the program's result is the result array reshaped back. -/
theorem tail_eq (c : Dev nD) :
    Pipeline.afterTail₀ cfgs (dats m) 0 (V0 m) [hostOps1] c main_v2
      = shapeCast S131072x256 ((dats m 0 c).arrAt 4 cfg0.N) shapeCasts_S8x16384x256_S131072x256 := by
  unfold Pipeline.afterTail₀
  show StableHlo.after hostOps1 _ (Proc.devRef .tc main_v2) = _
  after_results
  funext i
  exact congrArg (fun v => shapeCast S131072x256 v shapeCasts_S8x16384x256_S131072x256 i)
    (Pipeline.withArrays_arr spec0 launch0.win.arr_inj c (V0 m c) (fun w => (dats m 0 c).arrAt w cfg0.N) 4)

/-- The program's result in terms of the launch contents: the first argument grouped, the specification applied with
    the three projections, the result reshaped back. -/
abbrev result (c : Dev nD) : FVec Ideal S131072x256 .f32 :=
  shapeCast S131072x256
    (glu (shapeCast S8x16384x256 (m ((c : Thread nD τ).loc main_arg0)) shapeCasts_S131072x256_S8x16384x256)
      (m ((c : Thread nD τ).loc main_arg1)) (m ((c : Thread nD τ).loc main_arg2)) (m ((c : Thread nD τ).loc main_arg3)))
    shapeCasts_S8x16384x256_S131072x256

/-- The result array after the region, in terms of the launch contents. -/
theorem final_launch (c : Dev nD) :
    (dats m 0 c).arrAt 4 cfg0.N
      = glu (shapeCast S8x16384x256 (m ((c : Thread nD τ).loc main_arg0)) shapeCasts_S131072x256_S8x16384x256)
          (m ((c : Thread nD τ).loc main_arg1)) (m ((c : Thread nD τ).loc main_arg2)) (m ((c : Thread nD τ).loc main_arg3)) := by
  have e0 := xs_eq m c
  have e1 : wg m c = m ((c : Thread nD τ).loc main_arg1) := V_main_arg1 m c
  have e2 : wu m c = m ((c : Thread nD τ).loc main_arg2) := V_main_arg2 m c
  have e3 : wd m c = m ((c : Thread nD τ).loc main_arg3) := V_main_arg3 m c
  rw [final, e0, e1, e2, e3]

/-- Every weakly fair execution of the kernel program terminates with its result at the reshaped specification of
    the launch contents and every argument array unchanged. -/
theorem run : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v2 (Pipeline.mem_restRefs_of main_v2 (by decide) (by decide))).trans
        ((tail_eq m c).trans
          (congrArg (fun v => shapeCast S131072x256 v shapeCasts_S8x16384x256_S131072x256) (final_launch m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.GluValue

end
-- ==== Proof.RefIsSpec.lean ====
/-
  The reference computes the specification.

  Its grouped products are batched over the group axis and contract the feature axis, so at an entry each is the
  row-by-column sum inside that entry's group. Its activation is spelt out as z * (1 / (1 + exp (-z))), which is
  z * logistic z by the definition of the logistic function over the extended reals (the float pattern of 1.0
  denotes the number one). The reshape of the tokens into groups before, and of the result back after, are left
  unopened: the other program applies the same two.
-/
import proofs.«120272_j35373350650171_1_alg».proof.Proof.Gen.ReferenceIdeal.Read
import proofs.«120272_j35373350650171_1_alg».proof.Proof.Spec
import Idealize.ShloMosaic.Lib.IdealHost

noncomputable section

open scoped BigOperators

namespace Cert.ReferenceIdeal.GluRef

open Cert.ReferenceIdeal Cert.ReferenceIdeal.Read Idealize.ShloMosaic Idealize.ShloMosaic.ValueIdx Cert.GluSpec

variable (x0 : (⟨S131072x256, .f32⟩ : BufTy).Contents (Elt Ideal))
  (x1 x2 : (⟨S8x256x1024, .f32⟩ : BufTy).Contents (Elt Ideal)) (x3 : (⟨S8x1024x256, .f32⟩ : BufTy).Contents (Elt Ideal))

/-- The operand indices of the first two products, by coordinates. -/
theorem lidx1 (j : S8x16384x1024.Idx) (k : Fin 256) : lidx_main_v1 j k = ix3 (j 0) (j 1) k :=
  funext fun a => by match a with | ⟨0, _⟩ => rfl | ⟨1, _⟩ => rfl | ⟨2, _⟩ => rfl
theorem ridx1 (j : S8x16384x1024.Idx) (k : Fin 256) : ridx_main_v1 j k = ix3 (j 0) k (j 2) :=
  funext fun a => by match a with | ⟨0, _⟩ => rfl | ⟨1, _⟩ => rfl | ⟨2, _⟩ => rfl
theorem lidx2 (j : S8x16384x1024.Idx) (k : Fin 256) : lidx_main_v2 j k = ix3 (j 0) (j 1) k :=
  funext fun a => by match a with | ⟨0, _⟩ => rfl | ⟨1, _⟩ => rfl | ⟨2, _⟩ => rfl
theorem ridx2 (j : S8x16384x1024.Idx) (k : Fin 256) : ridx_main_v2 j k = ix3 (j 0) k (j 2) :=
  funext fun a => by match a with | ⟨0, _⟩ => rfl | ⟨1, _⟩ => rfl | ⟨2, _⟩ => rfl
/-- The operand indices of the last product, by coordinates. -/
theorem lidx5 (i : S8x16384x256.Idx) (f : Fin 1024) : lidx_main_v5 i f = ix3 (i 0) (i 1) f :=
  funext fun a => by match a with | ⟨0, _⟩ => rfl | ⟨1, _⟩ => rfl | ⟨2, _⟩ => rfl
theorem ridx5 (i : S8x16384x256.Idx) (f : Fin 1024) : ridx_main_v5 i f = ix3 (i 0) f (i 2) :=
  funext fun a => by match a with | ⟨0, _⟩ => rfl | ⟨1, _⟩ => rfl | ⟨2, _⟩ => rfl

/-- The gate's pre-activation. -/
theorem gate_eq (g : Fin 8) (t : Fin 16384) (f : Fin 1024) :
    val_main_v1 (F := Ideal) x0 x1 (ix3 g t f) = proj (val_main_v0 (F := Ideal) x0) x1 g t f := by
  rw [val_main_v1_apply]
  unfold proj
  refine Finset.sum_congr rfl fun k _ => ?_
  rw [lidx1, ridx1]
  rfl
/-- The up projection. -/
theorem up_eq (g : Fin 8) (t : Fin 16384) (f : Fin 1024) :
    val_main_v2 (F := Ideal) x0 x2 (ix3 g t f) = proj (val_main_v0 (F := Ideal) x0) x2 g t f := by
  rw [val_main_v2_apply]
  unfold proj
  refine Finset.sum_congr rfl fun k _ => ?_
  rw [lidx2, ridx2]
  rfl

/-- The hidden features: the spelt-out activation is the logistic function. -/
theorem hidden_eq (g : Fin 8) (t : Fin 16384) (f : Fin 1024) :
    val_main_v4 (F := Ideal) x0 x1 x2 (ix3 g t f) = Cert.GluSpec.hidden (val_main_v0 (F := Ideal) x0) x1 x2 g t f := by
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, gate_eq, up_eq]
  simp only [Ideal.mulf_def, Ideal.hostDivf_def, Ideal.addf_def, Ideal.hostUnary_exp_def, Ideal.hostNegf_def,
    Ideal.negf_def, Ideal.ofBits_def, Ideal.ofBits_one_f32]
  rfl

/-- The reference's last product is the specification of the grouped tokens and the three projections. -/
theorem ref_is_glu : val_main_v5 (F := Ideal) x0 x1 x2 x3 = glu (val_main_v0 (F := Ideal) x0) x1 x2 x3 := by
  funext i
  rw [val_main_v5_apply]
  unfold glu gluAt
  refine Finset.sum_congr rfl fun f _ => ?_
  rw [lidx5, ridx5]
  exact congrArg₂ (· * ·) (hidden_eq x0 x1 x2 (i 0) (i 1) f) rfl

end Cert.ReferenceIdeal.GluRef

end
-- ==== Proof.lean ====
/-
  A grouped gated linear unit: tokens in 8 groups of 16384 rows of 256 features; for the token (g, t)
    y(d) = sum over f of ((zg(f) * logistic(zg(f))) * zu(f)) * w_down(g, f, d),
    zg(f) = sum over k of x(g, t, k) * w_gate(g, k, f),   zu(f) likewise with w_up.

  The kernel walks a grid of 8 groups by 16 tiles of 1024 rows; at a point it multiplies the tile by the group's gate
  and up projections into zero accumulators, forms the hidden tile with the logistic function, and multiplies it by the
  group's down projection; the tiles cover the result. The reference does the same with three products batched over
  the group axis and the activation spelt z * (1 / (1 + exp (-z))). Over the extended reals a narrowing of the float
  format is the identity, a product into a zero accumulator is the plain sum of products on both sides, and
  1 / (1 + exp (-z)) is the logistic function by definition, so both programs compute the same function index by
  index: no algebraic law beyond these identities is used and the finiteness of the inputs is never opened. Both
  programs group the tokens by the same reshape and return through the inverse reshape; neither reads the group
  offsets.

  Spec: the function. Payload: a grid point's stored tile at an entry. Blocks: the tiles assembled into the result
  array. KernelRun: the kernel program's run with its result named. RefIsSpec: the reference's last product is the
  function. Here: the five claims.
-/
import proofs.«120272_j35373350650171_1_alg».proof.Defs
import proofs.«120272_j35373350650171_1_alg».proof.Proof.Gen.Kernel
import proofs.«120272_j35373350650171_1_alg».proof.Proof.Gen.Kernel.Skeleton
import proofs.«120272_j35373350650171_1_alg».proof.Proof.Gen.Kernel.Launch
import proofs.«120272_j35373350650171_1_alg».proof.Proof.Gen.Kernel.Points
import proofs.«120272_j35373350650171_1_alg».proof.Proof.Gen.Kernel.Frame
import proofs.«120272_j35373350650171_1_alg».proof.Proof.Gen.KernelIdeal
import proofs.«120272_j35373350650171_1_alg».proof.Proof.Gen.KernelIdeal.Skeleton
import proofs.«120272_j35373350650171_1_alg».proof.Proof.Gen.KernelIdeal.Launch
import proofs.«120272_j35373350650171_1_alg».proof.Proof.Gen.KernelIdeal.Points
import proofs.«120272_j35373350650171_1_alg».proof.Proof.Gen.KernelIdeal.Frame
import proofs.«120272_j35373350650171_1_alg».proof.Proof.Gen.ReferenceIdeal
import proofs.«120272_j35373350650171_1_alg».proof.Proof.Gen.ReferenceIdeal.Run
import proofs.«120272_j35373350650171_1_alg».proof.Proof.Gen.ReferenceIdeal.Read
import proofs.«120272_j35373350650171_1_alg».proof.Proof.Gen.Pre_finite_inputs
import proofs.«120272_j35373350650171_1_alg».proof.Proof.KernelRun
import proofs.«120272_j35373350650171_1_alg».proof.Proof.RefIsSpec
import Idealize.ShloMosaic.Adequacy
import Idealize.ShloMosaic.Init

noncomputable section

namespace Cert.Proof

open Idealize.ShloMosaic Idealize.SL.Sem

/-- The word-level kernel program terminates without a fault and keeps its arguments. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories agreeing on the arguments both programs end with the reshaped specification of the grouped tokens
    and the three projections. -/
theorem algebraic : Cert.algebraic_KernelIdeal_ReferenceIdeal := by
  intro m ρ m' ρ' _ hagree
  refine ⟨fun c => Cert.KernelIdeal.GluValue.result m c, Cert.KernelIdeal.GluValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq]
  unfold Cert.ReferenceIdeal.Read.val_main_v6
  rw [Cert.ReferenceIdeal.GluRef.ref_is_glu, (hagree c).1, (hagree c).2.1, (hagree c).2.2.1, (hagree c).2.2.2.1]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
